-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S1024x128 : Shape := ⟨2, ![1024, 128]⟩
abbrev S1024x512 : Shape := ⟨2, ![1024, 512]⟩

abbrev nBuf : Space → Nat
  | .hbm => 35
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x512, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S131072x128, .f32⟩
  | .hbm, ⟨34, _⟩ => ⟨S131072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S131072x128.size a
  hwx0_6 : ∀ i : grid0.Coords, EltTy.bits .f32 = 32 ∨ (Rect.block (s := S131072x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S131072x128.size a
  hwx0_7 : ∀ i : grid0.Coords, EltTy.bits .f32 = 32 ∨ (Rect.block (s := S131072x128) S1024x128.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S131072x512 : Shape := ⟨2, ![131072, 512]⟩
abbrev S1x512 : Shape := ⟨2, ![1, 512]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x128, .f32⟩
  | .hbm, ⟨20, _⟩ => ⟨S512x128, .f32⟩
  | .hbm, ⟨21, _⟩ => ⟨S512, .f32⟩
  | .hbm, ⟨22, _⟩ => ⟨S512, .f32⟩
  | .hbm, ⟨23, _⟩ => ⟨S128x512, .f32⟩
  | .hbm, ⟨24, _⟩ => ⟨S131072x512, .f32⟩
  | .hbm, ⟨25, _⟩ => ⟨S128x512, .f32⟩
  | .hbm, ⟨26, _⟩ => ⟨S131072x512, .f32⟩
  | .hbm, ⟨27, _⟩ => ⟨S131072x512, .f32⟩
  | .hbm, ⟨28, _⟩ => ⟨S1x512, .f32⟩
  | .hbm, ⟨29, _⟩ => ⟨S131072x512, .f32⟩
  | .hbm, ⟨30, _⟩ => ⟨S131072x512, .f32⟩
  | .hbm, ⟨31, _⟩ => ⟨S1x512, .f32⟩
  | .hbm, ⟨32, _⟩ => ⟨S131072x512, .f32⟩
  | .hbm, ⟨33, _⟩ => ⟨S131072x512, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S_, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.CellFrame.lean ====
/-
  The LSTM cell as one pipelined kernel: every weakly fair execution terminates without a fault and leaves the
  nineteen argument arrays as they were, and the two result arrays end at what the pipeline's bookkeeping computes
  from the body's stores.

  The program first builds, on the host, the two fused weight matrices (for each of the four gates the transposed
  128 x 128 weight, laid side by side into 128 x 512), and the fused bias row (the four input biases laid end to
  end, plus the four hidden biases laid end to end, as a 1 x 512 row).  None of these fourteen host operations
  writes an argument array; each writes its own result buffer, so the arrays the kernel's region finds are the
  arguments as launched and the three host results.

  The region runs over 128 grid points.  At point t it stages rows 1024 t .. 1024 t + 1023 of x, h and c (fetched at
  every point), the two weight matrices and the bias row whole (fetched once, at the first point: their block index
  never moves), and writes back rows 1024 t .. 1024 t + 1023 of the two results.  The body loads every input buffer
  whole, computes, and overwrites each output buffer whole with one store; what an output buffer holds after the
  body is therefore the single stored value, a pure function of the six input blocks.  It keeps nothing between
  points, so the proof data is: each input buffer at its block, each output buffer at that function of the blocks.
-/
import proofs.«145877_j11398843204098_1_alg».proof.Proof.Gen.Kernel.Launch
import proofs.«145877_j11398843204098_1_alg».proof.Proof.Gen.Kernel.Skeleton
import proofs.«145877_j11398843204098_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` as the region finds them: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the fourteen host results is found by the region as launched: each host operation writes
    its own result buffer only (a transpose, a concatenation, a sum, a reshape alike). -/
theorem V_untouched (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_v12 ∧ b ≠ main_v13) :
    V m c b = m ((c : Thread nD τ).loc b) := by
  obtain ⟨h0, h1, h2, h3, h4, h5, h6, h7, h8, h9, h10, h11, h12, h13⟩ := h
  exact StableHlo.after_of_forall_not_mem (b := Proc.devRef .tc b) _ _ (List.forall_iff_forall_mem.mp (by
    simp only [hostOps0, List.Forall, StableHlo.unary_writes, StableHlo.binary_writes, StableHlo.reshape_writes,
      StableHlo.nary_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13⟩))

theorem V_main_arg0 (c : Dev nD) : V m c main_arg0 = m ((c : Thread nD τ).loc main_arg0) := V_untouched m c main_arg0 (by decide)
theorem V_main_arg1 (c : Dev nD) : V m c main_arg1 = m ((c : Thread nD τ).loc main_arg1) := V_untouched m c main_arg1 (by decide)
theorem V_main_arg2 (c : Dev nD) : V m c main_arg2 = m ((c : Thread nD τ).loc main_arg2) := V_untouched m c main_arg2 (by decide)
theorem V_main_arg3 (c : Dev nD) : V m c main_arg3 = m ((c : Thread nD τ).loc main_arg3) := V_untouched m c main_arg3 (by decide)
theorem V_main_arg4 (c : Dev nD) : V m c main_arg4 = m ((c : Thread nD τ).loc main_arg4) := V_untouched m c main_arg4 (by decide)
theorem V_main_arg5 (c : Dev nD) : V m c main_arg5 = m ((c : Thread nD τ).loc main_arg5) := V_untouched m c main_arg5 (by decide)
theorem V_main_arg6 (c : Dev nD) : V m c main_arg6 = m ((c : Thread nD τ).loc main_arg6) := V_untouched m c main_arg6 (by decide)
theorem V_main_arg7 (c : Dev nD) : V m c main_arg7 = m ((c : Thread nD τ).loc main_arg7) := V_untouched m c main_arg7 (by decide)
theorem V_main_arg8 (c : Dev nD) : V m c main_arg8 = m ((c : Thread nD τ).loc main_arg8) := V_untouched m c main_arg8 (by decide)
theorem V_main_arg9 (c : Dev nD) : V m c main_arg9 = m ((c : Thread nD τ).loc main_arg9) := V_untouched m c main_arg9 (by decide)
theorem V_main_arg10 (c : Dev nD) : V m c main_arg10 = m ((c : Thread nD τ).loc main_arg10) := V_untouched m c main_arg10 (by decide)
theorem V_main_arg11 (c : Dev nD) : V m c main_arg11 = m ((c : Thread nD τ).loc main_arg11) := V_untouched m c main_arg11 (by decide)
theorem V_main_arg12 (c : Dev nD) : V m c main_arg12 = m ((c : Thread nD τ).loc main_arg12) := V_untouched m c main_arg12 (by decide)
theorem V_main_arg13 (c : Dev nD) : V m c main_arg13 = m ((c : Thread nD τ).loc main_arg13) := V_untouched m c main_arg13 (by decide)
theorem V_main_arg14 (c : Dev nD) : V m c main_arg14 = m ((c : Thread nD τ).loc main_arg14) := V_untouched m c main_arg14 (by decide)
theorem V_main_arg15 (c : Dev nD) : V m c main_arg15 = m ((c : Thread nD τ).loc main_arg15) := V_untouched m c main_arg15 (by decide)
theorem V_main_arg16 (c : Dev nD) : V m c main_arg16 = m ((c : Thread nD τ).loc main_arg16) := V_untouched m c main_arg16 (by decide)
theorem V_main_arg17 (c : Dev nD) : V m c main_arg17 = m ((c : Thread nD τ).loc main_arg17) := V_untouched m c main_arg17 (by decide)
theorem V_main_arg18 (c : Dev nD) : V m c main_arg18 = m ((c : Thread nD τ).loc main_arg18) := V_untouched m c main_arg18 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved), for any proof data over the region-entry arrays whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (unfetched, the block index has not moved), for any proof data over the region-entry arrays whose body leaves
    the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (unfetched, the block index has not moved), for any proof data over the region-entry arrays whose body leaves
    the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (unfetched, the block index has not moved), for any proof data over the region-entry arrays whose body leaves
    the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (unfetched, the block index has not moved), for any proof data over the region-entry arrays whose body leaves
    the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (unfetched, the block index has not moved), for any proof data over the region-entry arrays whose body leaves
    the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The body's accesses: each buffer whole. -/
abbrev rowsRect : Rect S1024x128 := Rect.unit (s := S1024x128) ![0, 0] S1024x128.size inb_S1024x128_S1024x128_0_0
abbrev weightRect : Rect S128x512 := Rect.unit (s := S128x512) ![0, 0] S128x512.size inb_S128x512_S128x512_0_0
abbrev biasRect : Rect S1x512 := Rect.unit (s := S1x512) ![0, 0] S1x512.size inb_S1x512_S1x512_0_0

/-- The hidden-state buffer after the body: its one whole store, the output gate times tanh of the new cell state. -/
def hiddenOut (x0 x1 x2 : Vec F S1024x128 .f32) (x3 x4 : Vec F S128x512 .f32) (x5 : Vec F S1x512 .f32) : Vec F S1024x128 .f32 :=
  View.canon [⟨rowsRect, k0_pay3 (View.ld x0 rowsRect) (View.ld x1 rowsRect) (View.ld x3 weightRect) (View.ld x4 weightRect) (View.ld x5 biasRect) (View.ld x2 rowsRect)⟩]

/-- The cell-state buffer after the body: its one whole store, forget gate times old cell state plus input gate times
    candidate. -/
def cellOut (x0 x1 x2 : Vec F S1024x128 .f32) (x3 x4 : Vec F S128x512 .f32) (x5 : Vec F S1x512 .f32) : Vec F S1024x128 .f32 :=
  View.canon [⟨rowsRect, k0_pay2 (View.ld x0 rowsRect) (View.ld x1 rowsRect) (View.ld x3 weightRect) (View.ld x4 weightRect) (View.ld x5 biasRect) (View.ld x2 rowsRect)⟩]

/-- One whole store covers the buffer. -/
theorem cover_rows (p0 : Vec F S1024x128 .f32) (y : S1024x128.Idx) :
    ∃ pc ∈ ([⟨rowsRect, p0⟩] : List (View.Piece (Elt F) S1024x128 .f32)), y ∈ pc.1.set :=
  View.cover_of_tiled [⟨rowsRect, p0⟩] S1024x128.size (by rfl) y

/-! ## The body's triple -/

set_option maxHeartbeats 1000000 in
/-- The body on whole staging buffers, the six inputs' at read contents `x0 … x5` and the two outputs' at anything,
    runs to a continuation that holds the inputs as they were and the outputs at `hiddenOut` and `cellOut` of the
    inputs. (The body also loads each output buffer before overwriting it; the loaded value is not used.) -/
theorem sound_kernel (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole)
    (x0 x1 x2 : Vec F S1024x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data on core `c`: the arrays as the region finds them; after the body at point `t` each input buffer at
    its block and each output buffer at its function of the six input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cellOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution from any memory with zero counters terminates, every array of the pipeline ends at
    what the proof data computes, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an argument that a window stages (x, h, c: windows 0, 1, 2, never written back) is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-- After the run an argument that no window stages (the eight weights and eight biases) is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- The run with the two result arrays named and the arguments unchanged. -/
theorem run_named : θ_run defs (onTc (τ := τ) (main (F := F))) ⟨m, fun _ => 0, ρ⟩ fun r => ∀ c : Dev nD,
      r.2.mem ((c : Thread nD τ).loc main_v14_0) = (dats m 0 c).arrAt 6 cfg0.N
      ∧ r.2.mem ((c : Thread nD τ).loc main_v14_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1 6, (h c).1 7,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

/-- The frame: the run with the results forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_named m ρ)

end Cert.Kernel.Cell

end
-- ==== Proof.CellFrameIdeal.lean ====
/-
  The LSTM cell as one pipelined kernel: every weakly fair execution terminates without a fault and leaves the
  nineteen argument arrays as they were, and the two result arrays end at what the pipeline's bookkeeping computes
  from the body's stores.

  The program first builds, on the host, the two fused weight matrices (for each of the four gates the transposed
  128 x 128 weight, laid side by side into 128 x 512), and the fused bias row (the four input biases laid end to
  end, plus the four hidden biases laid end to end, as a 1 x 512 row).  None of these fourteen host operations
  writes an argument array; each writes its own result buffer, so the arrays the kernel's region finds are the
  arguments as launched and the three host results.

  The region runs over 128 grid points.  At point t it stages rows 1024 t .. 1024 t + 1023 of x, h and c (fetched at
  every point), the two weight matrices and the bias row whole (fetched once, at the first point: their block index
  never moves), and writes back rows 1024 t .. 1024 t + 1023 of the two results.  The body loads every input buffer
  whole, computes, and overwrites each output buffer whole with one store; what an output buffer holds after the
  body is therefore the single stored value, a pure function of the six input blocks.  It keeps nothing between
  points, so the proof data is: each input buffer at its block, each output buffer at that function of the blocks.
-/
import proofs.«145877_j11398843204098_1_alg».proof.Proof.Gen.KernelIdeal.Launch
import proofs.«145877_j11398843204098_1_alg».proof.Proof.Gen.KernelIdeal.Skeleton
import proofs.«145877_j11398843204098_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` as the region finds them: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the fourteen host results is found by the region as launched: each host operation writes
    its own result buffer only (a transpose, a concatenation, a sum, a reshape alike). -/
theorem V_untouched (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_v12 ∧ b ≠ main_v13) :
    V m c b = m ((c : Thread nD τ).loc b) := by
  obtain ⟨h0, h1, h2, h3, h4, h5, h6, h7, h8, h9, h10, h11, h12, h13⟩ := h
  exact StableHlo.after_of_forall_not_mem (b := Proc.devRef .tc b) _ _ (List.forall_iff_forall_mem.mp (by
    simp only [hostOps0, List.Forall, StableHlo.unary_writes, StableHlo.binary_writes, StableHlo.reshape_writes,
      StableHlo.nary_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13⟩))

theorem V_main_arg0 (c : Dev nD) : V m c main_arg0 = m ((c : Thread nD τ).loc main_arg0) := V_untouched m c main_arg0 (by decide)
theorem V_main_arg1 (c : Dev nD) : V m c main_arg1 = m ((c : Thread nD τ).loc main_arg1) := V_untouched m c main_arg1 (by decide)
theorem V_main_arg2 (c : Dev nD) : V m c main_arg2 = m ((c : Thread nD τ).loc main_arg2) := V_untouched m c main_arg2 (by decide)
theorem V_main_arg3 (c : Dev nD) : V m c main_arg3 = m ((c : Thread nD τ).loc main_arg3) := V_untouched m c main_arg3 (by decide)
theorem V_main_arg4 (c : Dev nD) : V m c main_arg4 = m ((c : Thread nD τ).loc main_arg4) := V_untouched m c main_arg4 (by decide)
theorem V_main_arg5 (c : Dev nD) : V m c main_arg5 = m ((c : Thread nD τ).loc main_arg5) := V_untouched m c main_arg5 (by decide)
theorem V_main_arg6 (c : Dev nD) : V m c main_arg6 = m ((c : Thread nD τ).loc main_arg6) := V_untouched m c main_arg6 (by decide)
theorem V_main_arg7 (c : Dev nD) : V m c main_arg7 = m ((c : Thread nD τ).loc main_arg7) := V_untouched m c main_arg7 (by decide)
theorem V_main_arg8 (c : Dev nD) : V m c main_arg8 = m ((c : Thread nD τ).loc main_arg8) := V_untouched m c main_arg8 (by decide)
theorem V_main_arg9 (c : Dev nD) : V m c main_arg9 = m ((c : Thread nD τ).loc main_arg9) := V_untouched m c main_arg9 (by decide)
theorem V_main_arg10 (c : Dev nD) : V m c main_arg10 = m ((c : Thread nD τ).loc main_arg10) := V_untouched m c main_arg10 (by decide)
theorem V_main_arg11 (c : Dev nD) : V m c main_arg11 = m ((c : Thread nD τ).loc main_arg11) := V_untouched m c main_arg11 (by decide)
theorem V_main_arg12 (c : Dev nD) : V m c main_arg12 = m ((c : Thread nD τ).loc main_arg12) := V_untouched m c main_arg12 (by decide)
theorem V_main_arg13 (c : Dev nD) : V m c main_arg13 = m ((c : Thread nD τ).loc main_arg13) := V_untouched m c main_arg13 (by decide)
theorem V_main_arg14 (c : Dev nD) : V m c main_arg14 = m ((c : Thread nD τ).loc main_arg14) := V_untouched m c main_arg14 (by decide)
theorem V_main_arg15 (c : Dev nD) : V m c main_arg15 = m ((c : Thread nD τ).loc main_arg15) := V_untouched m c main_arg15 (by decide)
theorem V_main_arg16 (c : Dev nD) : V m c main_arg16 = m ((c : Thread nD τ).loc main_arg16) := V_untouched m c main_arg16 (by decide)
theorem V_main_arg17 (c : Dev nD) : V m c main_arg17 = m ((c : Thread nD τ).loc main_arg17) := V_untouched m c main_arg17 (by decide)
theorem V_main_arg18 (c : Dev nD) : V m c main_arg18 = m ((c : Thread nD τ).loc main_arg18) := V_untouched m c main_arg18 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved), for any proof data over the region-entry arrays whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (unfetched, the block index has not moved), for any proof data over the region-entry arrays whose body leaves
    the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (unfetched, the block index has not moved), for any proof data over the region-entry arrays whose body leaves
    the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (unfetched, the block index has not moved), for any proof data over the region-entry arrays whose body leaves
    the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (unfetched, the block index has not moved), for any proof data over the region-entry arrays whose body leaves
    the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (unfetched, the block index has not moved), for any proof data over the region-entry arrays whose body leaves
    the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The body's accesses: each buffer whole. -/
abbrev rowsRect : Rect S1024x128 := Rect.unit (s := S1024x128) ![0, 0] S1024x128.size inb_S1024x128_S1024x128_0_0
abbrev weightRect : Rect S128x512 := Rect.unit (s := S128x512) ![0, 0] S128x512.size inb_S128x512_S128x512_0_0
abbrev biasRect : Rect S1x512 := Rect.unit (s := S1x512) ![0, 0] S1x512.size inb_S1x512_S1x512_0_0

/-- The hidden-state buffer after the body: its one whole store, the output gate times tanh of the new cell state. -/
def hiddenOut (x0 x1 x2 : Vec F S1024x128 .f32) (x3 x4 : Vec F S128x512 .f32) (x5 : Vec F S1x512 .f32) : Vec F S1024x128 .f32 :=
  View.canon [⟨rowsRect, k0_pay3 (View.ld x0 rowsRect) (View.ld x1 rowsRect) (View.ld x3 weightRect) (View.ld x4 weightRect) (View.ld x5 biasRect) (View.ld x2 rowsRect)⟩]

/-- The cell-state buffer after the body: its one whole store, forget gate times old cell state plus input gate times
    candidate. -/
def cellOut (x0 x1 x2 : Vec F S1024x128 .f32) (x3 x4 : Vec F S128x512 .f32) (x5 : Vec F S1x512 .f32) : Vec F S1024x128 .f32 :=
  View.canon [⟨rowsRect, k0_pay2 (View.ld x0 rowsRect) (View.ld x1 rowsRect) (View.ld x3 weightRect) (View.ld x4 weightRect) (View.ld x5 biasRect) (View.ld x2 rowsRect)⟩]

/-- One whole store covers the buffer. -/
theorem cover_rows (p0 : Vec F S1024x128 .f32) (y : S1024x128.Idx) :
    ∃ pc ∈ ([⟨rowsRect, p0⟩] : List (View.Piece (Elt F) S1024x128 .f32)), y ∈ pc.1.set :=
  View.cover_of_tiled [⟨rowsRect, p0⟩] S1024x128.size (by rfl) y

/-! ## The body's triple -/

set_option maxHeartbeats 1000000 in
/-- The body on whole staging buffers, the six inputs' at read contents `x0 … x5` and the two outputs' at anything,
    runs to a continuation that holds the inputs as they were and the outputs at `hiddenOut` and `cellOut` of the
    inputs. (The body also loads each output buffer before overwriting it; the loaded value is not used.) -/
theorem sound_kernel (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole)
    (x0 x1 x2 : Vec F S1024x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data on core `c`: the arrays as the region finds them; after the body at point `t` each input buffer at
    its block and each output buffer at its function of the six input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cellOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution from any memory with zero counters terminates, every array of the pipeline ends at
    what the proof data computes, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an argument that a window stages (x, h, c: windows 0, 1, 2, never written back) is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-- After the run an argument that no window stages (the eight weights and eight biases) is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- The run with the two result arrays named and the arguments unchanged. -/
theorem run_named : θ_run defs (onTc (τ := τ) (main (F := F))) ⟨m, fun _ => 0, ρ⟩ fun r => ∀ c : Dev nD,
      r.2.mem ((c : Thread nD τ).loc main_v14_0) = (dats m 0 c).arrAt 6 cfg0.N
      ∧ r.2.mem ((c : Thread nD τ).loc main_v14_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1 6, (h c).1 7,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

/-- The frame: the run with the results forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_named m ρ)

end Cert.KernelIdeal.Cell

end
-- ==== Proof.CellSpec.lean ====
/-
  The LSTM cell as mathematics, over the extended reals, with the four gates' weights fused.

  `x`, `h`, `c` are 131072 x 128 (one row per batch element).  The fused weight matrices `wx`, `wh` are 128 x 512:
  column 128 g + j of `wx` is row j of gate g's 128 x 128 input weight (g = 0, 1, 2, 3 for the forget, input, candidate
  and output gates), that is, `wx (k, 128 g + j) = W_g (j, k)`; the bias row `b` has 512 entries, entry 128 g + j the
  sum of gate g's two biases at j.  Then, for batch row r and column j,

      gate (r, q)   = (sum_k x (r, k) * wx (k, q)  +  sum_k h (r, k) * wh (k, q))  +  b q
      c' (r, j)     = sigmoid (gate (r, j)) * c (r, j)  +  sigmoid (gate (r, 128 + j)) * tanh (gate (r, 256 + j))
      h' (r, j)     = sigmoid (gate (r, 384 + j)) * tanh (c' (r, j)).

  Two ways of building the fused matrix agree entry by entry: transposing each gate's weight and laying the four side
  by side (along the columns), or stacking the four weights (along the rows) and transposing the stack.  Both read, at
  (k, q), gate q / 128's weight at (q % 128, k).
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

namespace Cert.LstmCell

open Idealize.ShloMosaic Idealize.ShloMosaic.ValueIdx

abbrev Batch : Shape := ⟨2, ![131072, 128]⟩
abbrev Square : Shape := ⟨2, ![128, 128]⟩
abbrev Stacked : Shape := ⟨2, ![512, 128]⟩
abbrev Fused : Shape := ⟨2, ![128, 512]⟩

/-! ## The fused weight matrix, two ways -/

/-- Column `q` of the fused matrix is row `q % 128` of gate `q / 128`'s weight. -/
def fusedT {α : Type} (u0 u1 u2 u3 : Square.Idx → α) : Fused.Idx → α := fun i =>
  (![u0, u1, u2, u3] ⟨(i 1).val / 128, by have h : (i 1).val < 512 := (i 1).isLt; omega⟩)
    (ix2 ⟨(i 1).val % 128, Nat.mod_lt _ (by decide)⟩ (i 0))

/-- Each weight transposed, the four laid side by side along the columns. -/
theorem transposed_side_by_side {α : Type} (u0 u1 u2 u3 : Square.Idx → α) (hT : Square.Transposes [1, 0] Square)
    (hC : Shape.Concatenates [Square, Square, Square, Square] Fused 1) :
    concatenate Fused 1 [⟨Square, transpose Square [1, 0] u0 hT⟩, ⟨Square, transpose Square [1, 0] u1 hT⟩,
      ⟨Square, transpose Square [1, 0] u2 hT⟩, ⟨Square, transpose Square [1, 0] u3 hT⟩] hC = fusedT u0 u1 u2 u3 := by
  funext i
  obtain ⟨k, q, rfl⟩ : ∃ (k : Fin 128) (q : Fin 512), i = ix2 k q := ⟨i 0, i 1, eq_ix2 i⟩
  have hq : q.val / 128 < 4 := by have := q.isLt; omega
  refine (concatenate_ofFn_apply (t := Fused) (s₁ := Square) (1 : Fin 2)
    (fun n : Fin 4 => transpose Square [1, 0] (![u0, u1, u2, u3] n) hT) hC rfl 128 rfl (ix2 k q) ⟨q.val / 128, hq⟩ rfl
    (ix2 k ⟨q.val % 128, Nat.mod_lt _ (by decide)⟩) rfl
    (fun b hb => by match b with | ⟨0, _⟩ => rfl | ⟨1, _⟩ => exact absurd rfl hb)).trans ?_
  exact transpose_ix2_apply _ hT _ _

/-- The four weights stacked along the rows, the stack transposed. -/
theorem stacked_then_transposed {α : Type} (u0 u1 u2 u3 : Square.Idx → α) (hT : Stacked.Transposes [1, 0] Fused)
    (hC : Shape.Concatenates [Square, Square, Square, Square] Stacked 0) :
    transpose Fused [1, 0] (concatenate Stacked 0 [⟨Square, u0⟩, ⟨Square, u1⟩, ⟨Square, u2⟩, ⟨Square, u3⟩] hC) hT
      = fusedT u0 u1 u2 u3 := by
  funext i
  obtain ⟨k, q, rfl⟩ : ∃ (k : Fin 128) (q : Fin 512), i = ix2 k q := ⟨i 0, i 1, eq_ix2 i⟩
  have hq : q.val / 128 < 4 := by have := q.isLt; omega
  refine (transpose_ix2_apply _ hT k q).trans ?_
  exact concatenate_ofFn_apply (t := Stacked) (s₁ := Square) (0 : Fin 2)
    (fun n : Fin 4 => ![u0, u1, u2, u3] n) hC rfl 128 rfl (ix2 q k) ⟨q.val / 128, hq⟩ rfl
    (ix2 ⟨q.val % 128, Nat.mod_lt _ (by decide)⟩ k) rfl
    (fun b hb => by match b with | ⟨0, _⟩ => exact absurd rfl hb | ⟨1, _⟩ => rfl)

/-! ## The cell -/

/-- Column `128 g + j` of the gates. -/
abbrev gateCol (g : Fin 4) (j : Fin 128) : Fin 512 := ⟨128 * g.val + j.val, by have := g.isLt; have := j.isLt; omega⟩

/-- One batch row's pre-activation at fused column `q`, from the row of `x` and the row of `h`: the two fused products
    plus the fused bias. -/
def gateRow (xr hr : Fin 128 → EReal) (wx wh : Fused.Idx → EReal) (b : Fin 512 → EReal) (q : Fin 512) : EReal :=
  ((∑ k : Fin 128, xr k * wx (ix2 k q)) + (∑ k : Fin 128, hr k * wh (ix2 k q))) + b q

/-- One entry of the new cell state, from its batch row of `x` and `h` and the old cell state's entry. -/
def cellRow (xr hr : Fin 128 → EReal) (cv : EReal) (wx wh : Fused.Idx → EReal) (b : Fin 512 → EReal) (j : Fin 128) : EReal :=
  Ideal.logistic (gateRow xr hr wx wh b (gateCol 0 j)) * cv
    + Ideal.logistic (gateRow xr hr wx wh b (gateCol 1 j)) * Ideal.tanh (gateRow xr hr wx wh b (gateCol 2 j))

/-- One entry of the new hidden state. -/
def hiddenRow (xr hr : Fin 128 → EReal) (cv : EReal) (wx wh : Fused.Idx → EReal) (b : Fin 512 → EReal) (j : Fin 128) : EReal :=
  Ideal.logistic (gateRow xr hr wx wh b (gateCol 3 j)) * Ideal.tanh (cellRow xr hr cv wx wh b j)

/-- The new cell state, the whole array. -/
def cellNext (x h c : Batch.Idx → EReal) (wx wh : Fused.Idx → EReal) (b : Fin 512 → EReal) : Batch.Idx → EReal := fun i =>
  cellRow (fun k => x (ix2 (i 0) k)) (fun k => h (ix2 (i 0) k)) (c i) wx wh b (i 1)

/-- The new hidden state, the whole array. -/
def hiddenNext (x h c : Batch.Idx → EReal) (wx wh : Fused.Idx → EReal) (b : Fin 512 → EReal) : Batch.Idx → EReal := fun i =>
  hiddenRow (fun k => x (ix2 (i 0) k)) (fun k => h (ix2 (i 0) k)) (c i) wx wh b (i 1)

end Cert.LstmCell

end
-- ==== Proof.CellBody.lean ====
/-
  What the kernel's body computes, entry by entry, over the extended reals.

  The body multiplies the block of x and the block of h (1024 x 128 each) by the two fused weight matrices
  (128 x 512), adds the two products and the bias row broadcast down the rows, cuts the 1024 x 512 result into four
  column bands of 128 (the forget, input, candidate and output gates), and combines them with the block of c.  Read
  at row p and column j this is the cell of CellSpec on row p of the two blocks: a change of float format is the
  identity on the extended reals, a product into a zero accumulator is the plain sum over the contracted index, and
  band g at column j is column 128 g + j.
-/
import proofs.«145877_j11398843204098_1_alg».proof.Proof.Gen.KernelIdeal.Skeleton
import proofs.«145877_j11398843204098_1_alg».proof.Proof.CellSpec

noncomputable section

namespace Cert.KernelIdeal.CellValue

open Cert.KernelIdeal Cert.KernelIdeal.Gen Cert.LstmCell
open Idealize.ShloMosaic Idealize.ShloMosaic.ValueIdx

/-! ## The matrix product at an entry -/

theorem lhs_axis0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_axis1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_axis0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_axis1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- A block times a fused weight matrix, into the zero accumulator, at entry (p, q): the sum over the 128 contracted
    positions of the block's row p times the matrix's column q. -/
theorem product_at (a : FVec Ideal S1024x128 .bf16) (w : FVec Ideal S128x512 .bf16) (p : Fin 1024) (q : Fin 512) :
    matmul dot_S1024x128_S128x512_S1024x512_1_0_0_1_n_n none a w (constant (F := Ideal) S1024x512 .f32 0x00000000#32) (ix2 p q)
      = ∑ k : Fin 128, a (ix2 p k) * w (ix2 k q) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p q) ((ValueIdx.contrEquiv1 dot_S1024x128_S128x512_S1024x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1024x128_S128x512_S1024x512_1_0_0_1_n_n.rhsIdx (ix2 p q) ((ValueIdx.contrEquiv1 dot_S1024x128_S128x512_S1024x512_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's three values at an entry -/

variable (x0 x1 x2 : Vec Ideal S1024x128 .f32) (x3 x4 : Vec Ideal S128x512 .f32) (x5 : Vec Ideal S1x512 .f32)

/-- The 1024 x 512 gates of the block, at row p and fused column q. -/
theorem gates_at (p : Fin 1024) (q : Fin 512) :
    k0_pay1 (F := Ideal) x0 x1 x3 x4 x5 (ix2 p q)
      = gateRow (fun k => x0 (ix2 p k)) (fun k => x1 (ix2 p k)) x3 x4 (fun q => x5 (ix2 (0 : Fin 1) q)) q := by
  unfold k0_pay1 gateRow
  simp only [shapeCast_self]
  refine congrArg₂ (· + ·) (congrArg₂ (· + ·) ?_ ?_) ?_
  · exact product_at _ _ p q
  · exact product_at _ _ p q
  · exact broadcastTo_1b_ab_apply _ _ p q

/-- The new cell state of the block, at row p and column j. -/
theorem cell_at (p : Fin 1024) (j : Fin 128) :
    k0_pay2 (F := Ideal) x0 x1 x3 x4 x5 x2 (ix2 p j)
      = cellRow (fun k => x0 (ix2 p k)) (fun k => x1 (ix2 p k)) (x2 (ix2 p j)) x3 x4 (fun q => x5 (ix2 (0 : Fin 1) q)) j := by
  have s0 := slice2_axis1_apply 0 (k0_pay1 (F := Ideal) x0 x1 x3 x4 x5) slices_S1024x512_o0_0_S1024x128 p j (gateCol 0 j) (by show 128 * 0 + j.val = 0 + j.val; omega)
  have s1 := slice2_axis1_apply 128 (k0_pay1 (F := Ideal) x0 x1 x3 x4 x5) slices_S1024x512_o0_128_S1024x128 p j (gateCol 1 j) (by show 128 * 1 + j.val = 128 + j.val; omega)
  have s2 := slice2_axis1_apply 256 (k0_pay1 (F := Ideal) x0 x1 x3 x4 x5) slices_S1024x512_o0_256_S1024x128 p j (gateCol 2 j) (by show 128 * 2 + j.val = 256 + j.val; omega)
  unfold cellRow
  rw [← gates_at x0 x1 x3 x4 x5 p (gateCol 0 j), ← gates_at x0 x1 x3 x4 x5 p (gateCol 1 j), ← gates_at x0 x1 x3 x4 x5 p (gateCol 2 j), ← s0, ← s1, ← s2]
  rfl

/-- The new hidden state of the block, at row p and column j. -/
theorem hidden_at (p : Fin 1024) (j : Fin 128) :
    k0_pay3 (F := Ideal) x0 x1 x3 x4 x5 x2 (ix2 p j)
      = hiddenRow (fun k => x0 (ix2 p k)) (fun k => x1 (ix2 p k)) (x2 (ix2 p j)) x3 x4 (fun q => x5 (ix2 (0 : Fin 1) q)) j := by
  have s3 := slice2_axis1_apply 384 (k0_pay1 (F := Ideal) x0 x1 x3 x4 x5) slices_S1024x512_o0_384_S1024x128 p j (gateCol 3 j) (by show 128 * 3 + j.val = 384 + j.val; omega)
  unfold hiddenRow
  rw [← cell_at x0 x1 x2 x3 x4 x5 p j, ← gates_at x0 x1 x3 x4 x5 p (gateCol 3 j), ← s3]
  rfl

end Cert.KernelIdeal.CellValue

end
-- ==== Proof.LibHostFour.lean ====
/-
  A host operation with four operands, read at its result buffer.

  A host operation over a family of operand buffers leaves, in its result buffer, its function of the family of the
  operands' contents.  When the family is four literal buffers and the function reads the family only at positions
  0, 1, 2, 3 (a concatenation of four pieces does), the result is that function of the four buffers' contents, each
  named by its own buffer: in this form the contents of each operand can be rewritten further, which under the
  family's binder they cannot.
-/
import Idealize.ShloMosaic.Lib.StableHlo.Run

namespace Cert.LibHostFour

open Idealize.ShloMosaic Idealize.ShloMosaic.StableHlo

variable {τ : Topo} {sig : RefSig} {Val : EltTy → Type}

/-- The result of a four-operand host operation whose function is `g` of the four operands' contents. -/
theorem nary_four_result (x0 x1 x2 x3 y : Ref sig .tc)
    (f : ((k : Fin 4) → ((![x0, x1, x2, x3] : Fin 4 → Ref sig .tc) k).ty.Contents Val) → y.ty.Contents Val) (hxs hy)
    (F : Valuation τ sig Val)
    (g : x0.ty.Contents Val → x1.ty.Contents Val → x2.ty.Contents Val → x3.ty.Contents Val → y.ty.Contents Val)
    (hf : ∀ u, f u = g (u 0) (u 1) (u 2) (u 3)) :
    (nary (τ := τ) ![x0, x1, x2, x3] y f hxs hy).result F (Proc.devRef .tc y)
      = g (F (Proc.devRef .tc x0)) (F (Proc.devRef .tc x1)) (F (Proc.devRef .tc x2)) (F (Proc.devRef .tc x3)) := by
  rw [nary_result, hf]
  rfl

end Cert.LibHostFour
-- ==== Proof.CellHost.lean ====
/-
  The three arrays the host builds before the region, as functions of the arguments.

  The program's fourteen host operations run in three stretches.  Operations one to five transpose the four gates'
  input weights and lay the transposes side by side: the fused input weights.  Operations six to ten do the same with
  the hidden weights.  Operations eleven to fourteen lay the four input biases end to end, the four hidden biases end
  to end, add the two, and view the 512 sums as one row.  An operation writes only its own result buffer, so a stretch
  leaves alone whatever an earlier stretch built and whatever argument a later stretch reads; each array can therefore
  be read off its own stretch, with the other stretches skipped.
-/
import proofs.«145877_j11398843204098_1_alg».proof.Proof.CellFrameIdeal
import proofs.«145877_j11398843204098_1_alg».proof.Proof.CellSpec
import Idealize.ShloMosaic.Lib.StableHlo.Run
import Idealize.ShloMosaic.Lib.Pipeline.Value
import Idealize.ShloMosaic.Lib.ValueLayout
import proofs.«145877_j11398843204098_1_alg».proof.Proof.LibHostFour

noncomputable section

namespace Cert.KernelIdeal.CellHost

open Cert.KernelIdeal Cert.KernelIdeal.Gen Cert.KernelIdeal.Cell Cert.LstmCell
open Idealize.ShloMosaic Idealize.ShloMosaic.TcCoe Idealize.SL.Sem Idealize.ShloMosaic.ValueIdx Idealize.ShloMosaic.StableHlo
open Cert.LibHostFour

variable (m : (ℓ : Loc nD τ sig) → Buf (Elt Ideal) ℓ)

/-- Rewrites each host operation's result at a literal buffer: its function of the operands at its own result buffer,
    what was there before at any other. -/
macro "host_results" : tactic =>
  `(tactic| repeat (first
      | rw [unary_result] | rw [binary_result] | rw [reshape_result] | rw [nary_result]
      | (rw [unary_result_ne]; rotate_left; decide)
      | (rw [binary_result_ne]; rotate_left; decide)
      | (rw [reshape_result_ne]; rotate_left; decide)
      | (rw [nary_result_ne]; rotate_left; decide)))

/-- No operation of a stretch writes the buffer. -/
macro "not_written" : tactic =>
  `(tactic| (simp only [hostOps0, List.take_succ_cons, List.take_zero, List.drop_succ_cons, List.drop_zero, List.Forall,
      unary_writes, binary_writes, reshape_writes, nary_writes, Finset.mem_singleton]
             repeat' apply And.intro
             all_goals exact devRef_ne_of_ne (by decide)))

/-- The fused input weights as the region finds them: the first five host operations build them, and none of the nine
    after writes them. -/
theorem fused_input_weights (c : Dev nD) :
    (V m c main_v4 : S128x512.Idx → Elt Ideal .f32) = fusedT (m ((c : Thread nD τ).loc main_arg3)) (m ((c : Thread nD τ).loc main_arg7))
      (m ((c : Thread nD τ).loc main_arg11)) (m ((c : Thread nD τ).loc main_arg15)) := by
  show after hostOps0 (fun b => m (c, b)) (Proc.devRef .tc main_v4) = _
  rw [← List.take_append_drop 5 (hostOps0 (F := Ideal)), after_append,
    after_of_forall_not_mem (b := Proc.devRef .tc main_v4) _ _ (List.forall_iff_forall_mem.mp (by not_written))]
  simp only [hostOps0, List.take_succ_cons, List.take_zero, after_cons, after_nil]
  rw [nary_four_result main_v0 main_v1 main_v2 main_v3 main_v4 _ _ _ _ (fun a b c d => concatenate S128x512 1 [⟨S128x128, a⟩, ⟨S128x128, b⟩, ⟨S128x128, c⟩, ⟨S128x128, d⟩] concatenates_S128x128_S128x128_S128x128_S128x128_S128x512_d1) (fun _ => rfl)]
  host_results
  exact transposed_side_by_side _ _ _ _ _ _

/-- The fused hidden weights as the region finds them: operations six to ten build them from arguments the first five
    do not write, and none of the four after writes them. -/
theorem fused_hidden_weights (c : Dev nD) :
    (V m c main_v9 : S128x512.Idx → Elt Ideal .f32) = fusedT (m ((c : Thread nD τ).loc main_arg5)) (m ((c : Thread nD τ).loc main_arg9))
      (m ((c : Thread nD τ).loc main_arg13)) (m ((c : Thread nD τ).loc main_arg17)) := by
  show after hostOps0 (fun b => m (c, b)) (Proc.devRef .tc main_v9) = _
  rw [← List.take_append_drop 10 (hostOps0 (F := Ideal)), after_append,
    after_of_forall_not_mem (b := Proc.devRef .tc main_v9) _ _ (List.forall_iff_forall_mem.mp (by not_written)),
    ← List.take_append_drop 5 (List.take 10 (hostOps0 (F := Ideal))), after_append]
  have e5 := after_of_forall_not_mem (b := Proc.devRef .tc main_arg5) (List.take 5 (List.take 10 (hostOps0 (F := Ideal)))) (fun b => m (c, b)) (List.forall_iff_forall_mem.mp (by not_written))
  have e9 := after_of_forall_not_mem (b := Proc.devRef .tc main_arg9) (List.take 5 (List.take 10 (hostOps0 (F := Ideal)))) (fun b => m (c, b)) (List.forall_iff_forall_mem.mp (by not_written))
  have e13 := after_of_forall_not_mem (b := Proc.devRef .tc main_arg13) (List.take 5 (List.take 10 (hostOps0 (F := Ideal)))) (fun b => m (c, b)) (List.forall_iff_forall_mem.mp (by not_written))
  have e17 := after_of_forall_not_mem (b := Proc.devRef .tc main_arg17) (List.take 5 (List.take 10 (hostOps0 (F := Ideal)))) (fun b => m (c, b)) (List.forall_iff_forall_mem.mp (by not_written))
  generalize after (List.take 5 (List.take 10 (hostOps0 (F := Ideal)))) (fun b => m (c, b)) = W at e5 e9 e13 e17 ⊢
  simp only [hostOps0, List.take_succ_cons, List.take_zero, List.drop_succ_cons, List.drop_zero, after_cons, after_nil]
  rw [nary_four_result main_v5 main_v6 main_v7 main_v8 main_v9 _ _ _ _ (fun a b c d => concatenate S128x512 1 [⟨S128x128, a⟩, ⟨S128x128, b⟩, ⟨S128x128, c⟩, ⟨S128x128, d⟩] concatenates_S128x128_S128x128_S128x128_S128x128_S128x512_d1) (fun _ => rfl)]
  host_results
  rw [e5, e9, e13, e17]
  exact transposed_side_by_side _ _ _ _ _ _

/-- The four input biases laid end to end. -/
abbrev inputBiases (c : Dev nD) : S512.Idx → EReal :=
  concatenate S512 0 [⟨S128, (m ((c : Thread nD τ).loc main_arg4) : S128.Idx → EReal)⟩, ⟨S128, (m ((c : Thread nD τ).loc main_arg8) : S128.Idx → EReal)⟩,
    ⟨S128, (m ((c : Thread nD τ).loc main_arg12) : S128.Idx → EReal)⟩, ⟨S128, (m ((c : Thread nD τ).loc main_arg16) : S128.Idx → EReal)⟩] concatenates_S128_S128_S128_S128_S512_d0
/-- The four hidden biases laid end to end. -/
abbrev hiddenBiases (c : Dev nD) : S512.Idx → EReal :=
  concatenate S512 0 [⟨S128, (m ((c : Thread nD τ).loc main_arg6) : S128.Idx → EReal)⟩, ⟨S128, (m ((c : Thread nD τ).loc main_arg10) : S128.Idx → EReal)⟩,
    ⟨S128, (m ((c : Thread nD τ).loc main_arg14) : S128.Idx → EReal)⟩, ⟨S128, (m ((c : Thread nD τ).loc main_arg18) : S128.Idx → EReal)⟩] concatenates_S128_S128_S128_S128_S512_d0

/-- The fused bias row as the region finds it, at column q: the four input biases laid end to end, plus the four hidden
    biases laid end to end, read at q.  The last four host operations build it from arguments the first ten do not write. -/
theorem fused_bias_at (c : Dev nD) (q : Fin 512) :
    (V m c main_v13 : S1x512.Idx → Elt Ideal .f32) (ix2 (0 : Fin 1) q) = inputBiases m c (ix1 q) + hiddenBiases m c (ix1 q) := by
  show after hostOps0 (fun b => m (c, b)) (Proc.devRef .tc main_v13) (ix2 (0 : Fin 1) q) = _
  rw [← List.take_append_drop 10 (hostOps0 (F := Ideal)), after_append]
  have e4 := after_of_forall_not_mem (b := Proc.devRef .tc main_arg4) (List.take 10 (hostOps0 (F := Ideal))) (fun b => m (c, b)) (List.forall_iff_forall_mem.mp (by not_written))
  have e8 := after_of_forall_not_mem (b := Proc.devRef .tc main_arg8) (List.take 10 (hostOps0 (F := Ideal))) (fun b => m (c, b)) (List.forall_iff_forall_mem.mp (by not_written))
  have e12 := after_of_forall_not_mem (b := Proc.devRef .tc main_arg12) (List.take 10 (hostOps0 (F := Ideal))) (fun b => m (c, b)) (List.forall_iff_forall_mem.mp (by not_written))
  have e16 := after_of_forall_not_mem (b := Proc.devRef .tc main_arg16) (List.take 10 (hostOps0 (F := Ideal))) (fun b => m (c, b)) (List.forall_iff_forall_mem.mp (by not_written))
  have e6 := after_of_forall_not_mem (b := Proc.devRef .tc main_arg6) (List.take 10 (hostOps0 (F := Ideal))) (fun b => m (c, b)) (List.forall_iff_forall_mem.mp (by not_written))
  have e10 := after_of_forall_not_mem (b := Proc.devRef .tc main_arg10) (List.take 10 (hostOps0 (F := Ideal))) (fun b => m (c, b)) (List.forall_iff_forall_mem.mp (by not_written))
  have e14 := after_of_forall_not_mem (b := Proc.devRef .tc main_arg14) (List.take 10 (hostOps0 (F := Ideal))) (fun b => m (c, b)) (List.forall_iff_forall_mem.mp (by not_written))
  have e18 := after_of_forall_not_mem (b := Proc.devRef .tc main_arg18) (List.take 10 (hostOps0 (F := Ideal))) (fun b => m (c, b)) (List.forall_iff_forall_mem.mp (by not_written))
  generalize after (List.take 10 (hostOps0 (F := Ideal))) (fun b => m (c, b)) = W at e4 e8 e12 e16 e6 e10 e14 e18 ⊢
  simp only [hostOps0, List.drop_succ_cons, List.drop_zero, after_cons, after_nil]
  rw [reshape_result, binary_result, nary_result_ne _ _ _ _ _ _ (by decide),
    nary_four_result main_arg4 main_arg8 main_arg12 main_arg16 main_v10 _ _ _ _ (fun a b c d => concatenate S512 0 [⟨S128, a⟩, ⟨S128, b⟩, ⟨S128, c⟩, ⟨S128, d⟩] concatenates_S128_S128_S128_S128_S512_d0) (fun _ => rfl),
    nary_four_result main_arg6 main_arg10 main_arg14 main_arg18 main_v11 _ _ _ _ (fun a b c d => concatenate S512 0 [⟨S128, a⟩, ⟨S128, b⟩, ⟨S128, c⟩, ⟨S128, d⟩] concatenates_S128_S128_S128_S128_S512_d0) (fun _ => rfl)]
  host_results
  rw [e4, e8, e12, e16, e6, e10, e14, e18]
  exact shapeCast_a_1a_apply _ _ 0 q

end Cert.KernelIdeal.CellHost

end
-- ==== Proof.CellKernelValue.lean ====
/-
  The two result arrays of the kernel's program, as functions of the nineteen arguments.

  At grid point t the region stages rows 1024 t .. 1024 t + 1023 of x, h and c, and the two fused weight matrices and
  the bias row whole; the body's stores, read at row p and column j of the block, are the cell of CellSpec on row
  1024 t + p of the arrays (CellBody); the 128 blocks tile each result array, so each result array is the cell, entry by
  entry, of the arrays the region finds.  Those are the arguments x, h, c as launched and the three host results: the
  fused matrices, entry by entry gate q / 128's weight at (q % 128, k), and the bias row, the two concatenated bias
  vectors added.
-/
import proofs.«145877_j11398843204098_1_alg».proof.Proof.CellFrameIdeal
import proofs.«145877_j11398843204098_1_alg».proof.Proof.CellBody
import proofs.«145877_j11398843204098_1_alg».proof.Proof.CellHost
import Idealize.ShloMosaic.Lib.Pipeline.Value

noncomputable section

namespace Cert.KernelIdeal.CellValue

open Cert.KernelIdeal Cert.KernelIdeal.Gen Cert.KernelIdeal.Cell Cert.KernelIdeal.CellHost Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The cell's entries depend on their operands only through their values. -/
theorem cellRow_congr {xr xr' hr hr' : Fin 128 → EReal} {cv cv' : EReal} {wx wx' wh wh' : Fused.Idx → EReal} {b b' : Fin 512 → EReal}
    (j : Fin 128) (h0 : xr = xr') (h1 : hr = hr') (h2 : cv = cv') (h3 : wx = wx') (h4 : wh = wh') (h5 : b = b') :
    cellRow xr hr cv wx wh b j = cellRow xr' hr' cv' wx' wh' b' j := by subst h0 h1 h2 h3 h4 h5; rfl
theorem hiddenRow_congr {xr xr' hr hr' : Fin 128 → EReal} {cv cv' : EReal} {wx wx' wh wh' : Fused.Idx → EReal} {b b' : Fin 512 → EReal}
    (j : Fin 128) (h0 : xr = xr') (h1 : hr = hr') (h2 : cv = cv') (h3 : wx = wx') (h4 : wh = wh') (h5 : b = b') :
    hiddenRow xr hr cv wx wh b j = hiddenRow xr' hr' cv' wx' wh' b' j := by subst h0 h1 h2 h3 h4 h5; rfl

/-! ## The index maps over the grid -/

theorem rows_index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rows_index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem rows_index_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem rows_index_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem rows_index_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem whole_index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem whole_index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem whole_index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Row p of point t's block is row 1024 t + p of the array. -/
def blockRow (t : Fin cfg0.N) (p : Fin 1024) : Fin 131072 :=
  ⟨1024 * t.val + p.val, by have hN : cfg0.N = 128 := N_0; have := t.isLt; have := p.isLt; omega⟩

/-! ## The input blocks, read off the arrays the region finds -/

/-- Point t's block of x is rows 1024 t .. 1024 t + 1023 of x. -/
theorem x_block_at (c : Dev nD) (t : Fin cfg0.N) (p : Fin 1024) (k : Fin 128) :
    (iblk m c 0 t : Vec Ideal S1024x128 .f32) (ix2 p k) = (V m c main_arg0 : S131072x128.Idx → Elt Ideal .f32) (ix2 (blockRow t p) k) := by
  have hi : win0_0.index t (0 : Fin 2) = t.val ∧ win0_0.index t (1 : Fin 2) = 0 := rows_index_0 t
  unfold iblk
  rw [View.read_apply]
  show V m c main_arg0 _ = V m c main_arg0 _
  congr 1
  funext a
  apply Fin.ext
  match a with
  | ⟨0, _⟩ => show win0_0.index t (0 : Fin 2) * 1024 + 1 * p.val = 1024 * t.val + p.val; rw [hi.1]; omega
  | ⟨1, _⟩ => show win0_0.index t (1 : Fin 2) * 128 + 1 * k.val = k.val; rw [hi.2]; omega
/-- Point t's block of h is rows 1024 t .. 1024 t + 1023 of h. -/
theorem h_block_at (c : Dev nD) (t : Fin cfg0.N) (p : Fin 1024) (k : Fin 128) :
    (iblk m c 1 t : Vec Ideal S1024x128 .f32) (ix2 p k) = (V m c main_arg1 : S131072x128.Idx → Elt Ideal .f32) (ix2 (blockRow t p) k) := by
  have hi : win0_1.index t (0 : Fin 2) = t.val ∧ win0_1.index t (1 : Fin 2) = 0 := rows_index_1 t
  unfold iblk
  rw [View.read_apply]
  show V m c main_arg1 _ = V m c main_arg1 _
  congr 1
  funext a
  apply Fin.ext
  match a with
  | ⟨0, _⟩ => show win0_1.index t (0 : Fin 2) * 1024 + 1 * p.val = 1024 * t.val + p.val; rw [hi.1]; omega
  | ⟨1, _⟩ => show win0_1.index t (1 : Fin 2) * 128 + 1 * k.val = k.val; rw [hi.2]; omega
/-- Point t's block of c is rows 1024 t .. 1024 t + 1023 of c. -/
theorem c_block_at (c : Dev nD) (t : Fin cfg0.N) (p : Fin 1024) (k : Fin 128) :
    (iblk m c 2 t : Vec Ideal S1024x128 .f32) (ix2 p k) = (V m c main_arg2 : S131072x128.Idx → Elt Ideal .f32) (ix2 (blockRow t p) k) := by
  have hi : win0_2.index t (0 : Fin 2) = t.val ∧ win0_2.index t (1 : Fin 2) = 0 := rows_index_2 t
  unfold iblk
  rw [View.read_apply]
  show V m c main_arg2 _ = V m c main_arg2 _
  congr 1
  funext a
  apply Fin.ext
  match a with
  | ⟨0, _⟩ => show win0_2.index t (0 : Fin 2) * 1024 + 1 * p.val = 1024 * t.val + p.val; rw [hi.1]; omega
  | ⟨1, _⟩ => show win0_2.index t (1 : Fin 2) * 128 + 1 * k.val = k.val; rw [hi.2]; omega
/-- The fused input weights are staged whole at every point. -/
theorem wx_block_eq (c : Dev nD) (t : Fin cfg0.N) (y : S128x512.Idx) :
    (iblk m c 3 t : Vec Ideal S128x512 .f32) y = (V m c main_v4 : S128x512.Idx → Elt Ideal .f32) y := by
  have hi : win0_3.index t (0 : Fin 2) = 0 ∧ win0_3.index t (1 : Fin 2) = 0 := whole_index_3 t
  unfold iblk
  rw [View.read_apply]
  show V m c main_v4 _ = V m c main_v4 _
  congr 1
  funext a
  apply Fin.ext
  match a with
  | ⟨0, _⟩ => show win0_3.index t (0 : Fin 2) * 128 + 1 * (y 0).val = (y 0).val; rw [hi.1]; omega
  | ⟨1, _⟩ => show win0_3.index t (1 : Fin 2) * 512 + 1 * (y 1).val = (y 1).val; rw [hi.2]; omega
/-- The fused hidden weights are staged whole at every point. -/
theorem wh_block_eq (c : Dev nD) (t : Fin cfg0.N) (y : S128x512.Idx) :
    (iblk m c 4 t : Vec Ideal S128x512 .f32) y = (V m c main_v9 : S128x512.Idx → Elt Ideal .f32) y := by
  have hi : win0_4.index t (0 : Fin 2) = 0 ∧ win0_4.index t (1 : Fin 2) = 0 := whole_index_4 t
  unfold iblk
  rw [View.read_apply]
  show V m c main_v9 _ = V m c main_v9 _
  congr 1
  funext a
  apply Fin.ext
  match a with
  | ⟨0, _⟩ => show win0_4.index t (0 : Fin 2) * 128 + 1 * (y 0).val = (y 0).val; rw [hi.1]; omega
  | ⟨1, _⟩ => show win0_4.index t (1 : Fin 2) * 512 + 1 * (y 1).val = (y 1).val; rw [hi.2]; omega
/-- The fused bias row is staged whole at every point. -/
theorem b_block_eq (c : Dev nD) (t : Fin cfg0.N) (y : S1x512.Idx) :
    (iblk m c 5 t : Vec Ideal S1x512 .f32) y = (V m c main_v13 : S1x512.Idx → Elt Ideal .f32) y := by
  have hi : win0_5.index t (0 : Fin 2) = 0 ∧ win0_5.index t (1 : Fin 2) = 0 := whole_index_5 t
  unfold iblk
  rw [View.read_apply]
  show V m c main_v13 _ = V m c main_v13 _
  congr 1
  funext a
  apply Fin.ext
  match a with
  | ⟨0, _⟩ => show win0_5.index t (0 : Fin 2) * 1 + 1 * (y 0).val = (y 0).val; rw [hi.1]; omega
  | ⟨1, _⟩ => show win0_5.index t (1 : Fin 2) * 512 + 1 * (y 1).val = (y 1).val; rw [hi.2]; omega

/-! ## The cell of the arrays the region finds -/

/-- The new hidden state of the arrays the region finds. -/
def hiddenNextArr (c : Dev nD) : S131072x128.Idx → EReal :=
  hiddenNext (V m c main_arg0) (V m c main_arg1) (V m c main_arg2) (V m c main_v4) (V m c main_v9)
    (fun q => (V m c main_v13 : S1x512.Idx → Elt Ideal .f32) (ix2 (0 : Fin 1) q))
/-- The new cell state of the arrays the region finds. -/
def cellNextArr (c : Dev nD) : S131072x128.Idx → EReal :=
  cellNext (V m c main_arg0) (V m c main_arg1) (V m c main_arg2) (V m c main_v4) (V m c main_v9)
    (fun q => (V m c main_v13 : S1x512.Idx → Elt Ideal .f32) (ix2 (0 : Fin 1) q))

/-! ## The new hidden state result -/

/-- An index of the result array is in point `t`'s block iff each coordinate is in the block's range on its axis. -/
theorem mem_block6 (t : Fin cfg0.N) (i : S131072x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v14_0).slice (win0_6.rect t)).set ↔ _
  rw [View.set_slice_whole, Rect.mem_set_unit]
  exact Iff.rfl

/-- The blocks of the 128 points tile the result array: row r is in block r / 1024. -/
theorem cover6 (i : S131072x128.Idx) :
    ∃ t : Fin cfg0.N, (cfg0.win 6).flush t = true ∧ i ∈ ((cfg0.win 6).blk t).view.set := by
  have hN : cfg0.N = 128 := N_0
  have h0 : (i 0).val < 131072 := (i 0).isLt
  have h1 : (i 1).val < 128 := (i 1).isLt
  have ht : (i 0).val / 1024 < cfg0.N := by omega
  refine ⟨⟨(i 0).val / 1024, ht⟩, flush0_6 _, ?_⟩
  have hi : win0_6.index ⟨(i 0).val / 1024, ht⟩ (0 : Fin 2) = (i 0).val / 1024 ∧ win0_6.index ⟨(i 0).val / 1024, ht⟩ (1 : Fin 2) = 0 := rows_index_6 _
  rw [mem_block6]
  intro a
  match a with
  | ⟨0, _⟩ => show win0_6.index ⟨(i 0).val / 1024, ht⟩ (0 : Fin 2) * 1024 ≤ (i 0).val ∧ (i 0).val < win0_6.index ⟨(i 0).val / 1024, ht⟩ (0 : Fin 2) * 1024 + 1024; rw [hi.1]; omega
  | ⟨1, _⟩ => show win0_6.index ⟨(i 0).val / 1024, ht⟩ (1 : Fin 2) * 128 ≤ (i 1).val ∧ (i 1).val < win0_6.index ⟨(i 0).val / 1024, ht⟩ (1 : Fin 2) * 128 + 128; rw [hi.2]; omega

/-- Element (p, j) of point `t`'s block of the result array is element (1024 t + p, j) of the array. -/
theorem emb6 (t : Fin cfg0.N) (p : Fin 1024) (j : Fin 128) :
    ((cfg0.win 6).blk t).view.emb (ix2 p j) = (ix2 (blockRow t p) j : S131072x128.Idx) := by
  have hi : win0_6.index t (0 : Fin 2) = t.val ∧ win0_6.index t (1 : Fin 2) = 0 := rows_index_6 t
  funext a
  apply Fin.ext
  match a with
  | ⟨0, _⟩ => show win0_6.index t (0 : Fin 2) * 1024 + 1 * p.val = 1024 * t.val + p.val; rw [hi.1]; omega
  | ⟨1, _⟩ => show win0_6.index t (1 : Fin 2) * 128 + 1 * j.val = j.val; rw [hi.2]; omega

/-- What point `t` writes back is block `t` of the new hidden state of the arrays the region finds. -/
theorem flushed6_eq (c : Dev nD) (t : Fin cfg0.N) :
    (dats m 0 c).flushed 6 t = ((cfg0.win 6).blk t).view.read (Elt Ideal) (hiddenNextArr m c) := by
  show (cfg0.win 6).cut (grid0.coords t) ((dats m 0 c).after 6 t) = _
  rw [after6]
  unfold hiddenOut
  rw [View.canon_unit_zero hz]
  simp only [View.ld_unit_zero (S := S1024x128) hz, View.ld_unit_zero (S := S128x512) hz, View.ld_unit_zero (S := S1x512) hz]
  funext y
  obtain ⟨p, j, rfl⟩ : ∃ (p : Fin 1024) (j : Fin 128), y = ix2 p j := ⟨y 0, y 1, eq_ix2 y⟩
  show k0_pay3 (F := Ideal) (iblk m c 0 t) (iblk m c 1 t) (iblk m c 3 t) (iblk m c 4 t) (iblk m c 5 t) (iblk m c 2 t) (ix2 p j)
      = hiddenNextArr m c (((cfg0.win 6).blk t).view.emb (ix2 p j))
  rw [emb6]
  refine (hidden_at (iblk m c 0 t) (iblk m c 1 t) (iblk m c 2 t) (iblk m c 3 t) (iblk m c 4 t) (iblk m c 5 t) p j).trans ?_
  exact hiddenRow_congr j (funext fun k => x_block_at m c t p k) (funext fun k => h_block_at m c t p k) (c_block_at m c t p j)
    (funext fun y => wx_block_eq m c t y) (funext fun y => wh_block_eq m c t y) (funext fun q => b_block_eq m c t (ix2 (0 : Fin 1) q))

/-- After the run the result array holds the new hidden state of the arrays the region finds. -/
theorem final6 (c : Dev nD) : (dats m 0 c).arrAt 6 cfg0.N = hiddenNextArr m c :=
  (dats m 0 c).arrAt_eq_of_cover 6 (hiddenNextArr m c) (fun t _ => flushed6_eq m c t) cover6

/-! ## The new cell state result -/

/-- An index of the result array is in point `t`'s block iff each coordinate is in the block's range on its axis. -/
theorem mem_block7 (t : Fin cfg0.N) (i : S131072x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v14_1).slice (win0_7.rect t)).set ↔ _
  rw [View.set_slice_whole, Rect.mem_set_unit]
  exact Iff.rfl

/-- The blocks of the 128 points tile the result array: row r is in block r / 1024. -/
theorem cover7 (i : S131072x128.Idx) :
    ∃ t : Fin cfg0.N, (cfg0.win 7).flush t = true ∧ i ∈ ((cfg0.win 7).blk t).view.set := by
  have hN : cfg0.N = 128 := N_0
  have h0 : (i 0).val < 131072 := (i 0).isLt
  have h1 : (i 1).val < 128 := (i 1).isLt
  have ht : (i 0).val / 1024 < cfg0.N := by omega
  refine ⟨⟨(i 0).val / 1024, ht⟩, flush0_7 _, ?_⟩
  have hi : win0_7.index ⟨(i 0).val / 1024, ht⟩ (0 : Fin 2) = (i 0).val / 1024 ∧ win0_7.index ⟨(i 0).val / 1024, ht⟩ (1 : Fin 2) = 0 := rows_index_7 _
  rw [mem_block7]
  intro a
  match a with
  | ⟨0, _⟩ => show win0_7.index ⟨(i 0).val / 1024, ht⟩ (0 : Fin 2) * 1024 ≤ (i 0).val ∧ (i 0).val < win0_7.index ⟨(i 0).val / 1024, ht⟩ (0 : Fin 2) * 1024 + 1024; rw [hi.1]; omega
  | ⟨1, _⟩ => show win0_7.index ⟨(i 0).val / 1024, ht⟩ (1 : Fin 2) * 128 ≤ (i 1).val ∧ (i 1).val < win0_7.index ⟨(i 0).val / 1024, ht⟩ (1 : Fin 2) * 128 + 128; rw [hi.2]; omega

/-- Element (p, j) of point `t`'s block of the result array is element (1024 t + p, j) of the array. -/
theorem emb7 (t : Fin cfg0.N) (p : Fin 1024) (j : Fin 128) :
    ((cfg0.win 7).blk t).view.emb (ix2 p j) = (ix2 (blockRow t p) j : S131072x128.Idx) := by
  have hi : win0_7.index t (0 : Fin 2) = t.val ∧ win0_7.index t (1 : Fin 2) = 0 := rows_index_7 t
  funext a
  apply Fin.ext
  match a with
  | ⟨0, _⟩ => show win0_7.index t (0 : Fin 2) * 1024 + 1 * p.val = 1024 * t.val + p.val; rw [hi.1]; omega
  | ⟨1, _⟩ => show win0_7.index t (1 : Fin 2) * 128 + 1 * j.val = j.val; rw [hi.2]; omega

/-- What point `t` writes back is block `t` of the new cell state of the arrays the region finds. -/
theorem flushed7_eq (c : Dev nD) (t : Fin cfg0.N) :
    (dats m 0 c).flushed 7 t = ((cfg0.win 7).blk t).view.read (Elt Ideal) (cellNextArr m c) := by
  show (cfg0.win 7).cut (grid0.coords t) ((dats m 0 c).after 7 t) = _
  rw [after7]
  unfold cellOut
  rw [View.canon_unit_zero hz]
  simp only [View.ld_unit_zero (S := S1024x128) hz, View.ld_unit_zero (S := S128x512) hz, View.ld_unit_zero (S := S1x512) hz]
  funext y
  obtain ⟨p, j, rfl⟩ : ∃ (p : Fin 1024) (j : Fin 128), y = ix2 p j := ⟨y 0, y 1, eq_ix2 y⟩
  show k0_pay2 (F := Ideal) (iblk m c 0 t) (iblk m c 1 t) (iblk m c 3 t) (iblk m c 4 t) (iblk m c 5 t) (iblk m c 2 t) (ix2 p j)
      = cellNextArr m c (((cfg0.win 7).blk t).view.emb (ix2 p j))
  rw [emb7]
  refine (cell_at (iblk m c 0 t) (iblk m c 1 t) (iblk m c 2 t) (iblk m c 3 t) (iblk m c 4 t) (iblk m c 5 t) p j).trans ?_
  exact cellRow_congr j (funext fun k => x_block_at m c t p k) (funext fun k => h_block_at m c t p k) (c_block_at m c t p j)
    (funext fun y => wx_block_eq m c t y) (funext fun y => wh_block_eq m c t y) (funext fun q => b_block_eq m c t (ix2 (0 : Fin 1) q))

/-- After the run the result array holds the new cell state of the arrays the region finds. -/
theorem final7 (c : Dev nD) : (dats m 0 c).arrAt 7 cfg0.N = cellNextArr m c :=
  (dats m 0 c).arrAt_eq_of_cover 7 (cellNextArr m c) (fun t _ => flushed7_eq m c t) cover7

/-! ## The results as functions of the arguments -/

/-- The fused input weights, the fused hidden weights and the fused bias, of the arguments in memory `m`. -/
abbrev wxOf (c : Dev nD) : Fused.Idx → EReal :=
  fusedT (m ((c : Thread nD τ).loc main_arg3)) (m ((c : Thread nD τ).loc main_arg7)) (m ((c : Thread nD τ).loc main_arg11)) (m ((c : Thread nD τ).loc main_arg15))
abbrev whOf (c : Dev nD) : Fused.Idx → EReal :=
  fusedT (m ((c : Thread nD τ).loc main_arg5)) (m ((c : Thread nD τ).loc main_arg9)) (m ((c : Thread nD τ).loc main_arg13)) (m ((c : Thread nD τ).loc main_arg17))
abbrev biasOf (c : Dev nD) : Fin 512 → EReal := fun q => inputBiases m c (ix1 q) + hiddenBiases m c (ix1 q)

theorem hiddenNextArr_eq (c : Dev nD) : hiddenNextArr m c
    = hiddenNext (m ((c : Thread nD τ).loc main_arg0)) (m ((c : Thread nD τ).loc main_arg1)) (m ((c : Thread nD τ).loc main_arg2)) (wxOf m c) (whOf m c) (biasOf m c) := by
  unfold hiddenNextArr
  rw [V_main_arg0, V_main_arg1, V_main_arg2, fused_input_weights, fused_hidden_weights]
  exact congrArg _ (funext fun q => fused_bias_at m c q)

theorem cellNextArr_eq (c : Dev nD) : cellNextArr m c
    = cellNext (m ((c : Thread nD τ).loc main_arg0)) (m ((c : Thread nD τ).loc main_arg1)) (m ((c : Thread nD τ).loc main_arg2)) (wxOf m c) (whOf m c) (biasOf m c) := by
  unfold cellNextArr
  rw [V_main_arg0, V_main_arg1, V_main_arg2, fused_input_weights, fused_hidden_weights]
  exact congrArg _ (funext fun q => fused_bias_at m c q)

/-- The kernel's program: every weakly fair execution terminates with the first result at the new hidden state and the
    second at the new cell state of the arguments, and the arguments unchanged. -/
theorem run : θ_run defs (onTc (τ := τ) (main (F := Ideal))) ⟨m, fun _ => 0, ρ⟩ fun r => ∀ c : Dev nD,
      r.2.mem ((c : Thread nD τ).loc main_v14_0)
        = hiddenNext (m ((c : Thread nD τ).loc main_arg0)) (m ((c : Thread nD τ).loc main_arg1)) (m ((c : Thread nD τ).loc main_arg2)) (wxOf m c) (whOf m c) (biasOf m c)
      ∧ r.2.mem ((c : Thread nD τ).loc main_v14_1)
        = cellNext (m ((c : Thread nD τ).loc main_arg0)) (m ((c : Thread nD τ).loc main_arg1)) (m ((c : Thread nD τ).loc main_arg2)) (wxOf m c) (whOf m c) (biasOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1.trans (final6 m c)).trans (hiddenNextArr_eq m c),
      ((h c).2.1.trans (final7 m c)).trans (cellNextArr_eq m c), (h c).2.2⟩)
    (run_named m ρ)

end Cert.KernelIdeal.CellValue

end
-- ==== Proof.CellReference.lean ====
/-
  The reference, entry by entry, is the cell of CellSpec.

  The reference stacks the four gates' weights along the rows and transposes the stack to get each fused 128 x 512
  matrix, multiplies x and h by them, adds the two products, then adds the input biases (laid end to end, broadcast
  down the rows) and after that the hidden biases; it cuts the 131072 x 512 gates into four column bands and applies
  one over one plus the exponential of the negation (the sigmoid, spelt out) to three of them and tanh to the third.
  Adding the two bias rows one after the other is adding their sum: addition of extended reals is associative.
-/
import proofs.«145877_j11398843204098_1_alg».proof.Proof.Gen.ReferenceIdeal.Read
import proofs.«145877_j11398843204098_1_alg».proof.Proof.CellSpec
import Idealize.ShloMosaic.Lib.IdealHost

noncomputable section

namespace Cert.ReferenceIdeal.CellValue

open Cert.ReferenceIdeal Cert.ReferenceIdeal.Gen Cert.ReferenceIdeal.Read Cert.LstmCell
open Idealize.ShloMosaic Idealize.ShloMosaic.ValueIdx

variable (x0 x1 x2 : (⟨S131072x128, .f32⟩ : BufTy).Contents (Elt Ideal))
variable (x3 x5 x7 x9 x11 x13 x15 x17 : (⟨S128x128, .f32⟩ : BufTy).Contents (Elt Ideal))
variable (x4 x6 x8 x10 x12 x14 x16 x18 : (⟨S128, .f32⟩ : BufTy).Contents (Elt Ideal))

/-! ## The gates -/

/-- The 131072 x 512 gates at row r and fused column q. -/
theorem gates_at (r : Fin 131072) (q : Fin 512) :
    val_main_v14 (F := Ideal) x0 x1 x3 x4 x5 x6 x7 x8 x9 x10 x11 x12 x13 x14 x15 x16 x17 x18 (ix2 r q) = gateRow (fun k => x0 (ix2 r k)) (fun k => x1 (ix2 r k)) (val_main_v4 (F := Ideal) x3 x7 x11 x15) (val_main_v6 (F := Ideal) x5 x9 x13 x17) (fun q => val_main_v2 (F := Ideal) x4 x8 x12 x16 (ix1 q) + val_main_v3 (F := Ideal) x6 x10 x14 x18 (ix1 q)) q := by
  rw [val_main_v14_apply, val_main_v11_apply, val_main_v8_apply, val_main_v5_apply, val_main_v7_apply,
    val_main_v10_apply, val_main_v9_apply, val_main_v13_apply, val_main_v12_apply]
  have el5 : ∀ k : Fin 128, lidx_main_v5 (ix2 r q) k = ix2 r k := fun k => funext fun a => Fin.ext (by
    match a with | ⟨0, _⟩ => rfl | ⟨1, _⟩ => rfl)
  have er5 : ∀ k : Fin 128, ridx_main_v5 (ix2 r q) k = ix2 k q := fun k => funext fun a => Fin.ext (by
    match a with | ⟨0, _⟩ => rfl | ⟨1, _⟩ => rfl)
  have el7 : ∀ k : Fin 128, lidx_main_v7 (ix2 r q) k = ix2 r k := fun k => funext fun a => Fin.ext (by
    match a with | ⟨0, _⟩ => rfl | ⟨1, _⟩ => rfl)
  have er7 : ∀ k : Fin 128, ridx_main_v7 (ix2 r q) k = ix2 k q := fun k => funext fun a => Fin.ext (by
    match a with | ⟨0, _⟩ => rfl | ⟨1, _⟩ => rfl)
  have eb : idx_main_v9 (idx_main_v10 (ix2 r q)) = ix1 q := funext fun a => Fin.ext (by
    match a with | ⟨0, _⟩ => rfl)
  have eb' : idx_main_v12 (idx_main_v13 (ix2 r q)) = ix1 q := funext fun a => Fin.ext (by
    match a with | ⟨0, _⟩ => rfl)
  simp only [el5, er5, el7, er7]
  rw [eb, eb']
  unfold gateRow
  exact add_assoc _ _ _

/-! ## The bands and the sigmoids -/

theorem band_v15 (r : Fin 131072) (j : Fin 128) :
    val_main_v15 (F := Ideal) x0 x1 x3 x4 x5 x6 x7 x8 x9 x10 x11 x12 x13 x14 x15 x16 x17 x18 (ix2 r j) = val_main_v14 (F := Ideal) x0 x1 x3 x4 x5 x6 x7 x8 x9 x10 x11 x12 x13 x14 x15 x16 x17 x18 (ix2 r (gateCol 0 j)) := by
  rw [val_main_v15_apply]
  exact congrArg _ (funext fun a => Fin.ext (by
    match a with
    | ⟨0, _⟩ => rfl
    | ⟨1, _⟩ => show j.val = 128 * 0 + j.val; omega))
theorem band_v16 (r : Fin 131072) (j : Fin 128) :
    val_main_v16 (F := Ideal) x0 x1 x3 x4 x5 x6 x7 x8 x9 x10 x11 x12 x13 x14 x15 x16 x17 x18 (ix2 r j) = val_main_v14 (F := Ideal) x0 x1 x3 x4 x5 x6 x7 x8 x9 x10 x11 x12 x13 x14 x15 x16 x17 x18 (ix2 r (gateCol 1 j)) := by
  rw [val_main_v16_apply]
  exact congrArg _ (funext fun a => Fin.ext (by
    match a with
    | ⟨0, _⟩ => rfl
    | ⟨1, _⟩ => show 128 + j.val = 128 * 1 + j.val; omega))
theorem band_v17 (r : Fin 131072) (j : Fin 128) :
    val_main_v17 (F := Ideal) x0 x1 x3 x4 x5 x6 x7 x8 x9 x10 x11 x12 x13 x14 x15 x16 x17 x18 (ix2 r j) = val_main_v14 (F := Ideal) x0 x1 x3 x4 x5 x6 x7 x8 x9 x10 x11 x12 x13 x14 x15 x16 x17 x18 (ix2 r (gateCol 2 j)) := by
  rw [val_main_v17_apply]
  exact congrArg _ (funext fun a => Fin.ext (by
    match a with
    | ⟨0, _⟩ => rfl
    | ⟨1, _⟩ => show 256 + j.val = 128 * 2 + j.val; omega))
theorem band_v18 (r : Fin 131072) (j : Fin 128) :
    val_main_v18 (F := Ideal) x0 x1 x3 x4 x5 x6 x7 x8 x9 x10 x11 x12 x13 x14 x15 x16 x17 x18 (ix2 r j) = val_main_v14 (F := Ideal) x0 x1 x3 x4 x5 x6 x7 x8 x9 x10 x11 x12 x13 x14 x15 x16 x17 x18 (ix2 r (gateCol 3 j)) := by
  rw [val_main_v18_apply]
  exact congrArg _ (funext fun a => Fin.ext (by
    match a with
    | ⟨0, _⟩ => rfl
    | ⟨1, _⟩ => show 384 + j.val = 128 * 3 + j.val; omega))

/-- One over one plus the exponential of the negated band: the sigmoid of the band. -/
theorem sigmoid_v24 (i : S131072x128.Idx) :
    val_main_v24 (F := Ideal) x0 x1 x3 x4 x5 x6 x7 x8 x9 x10 x11 x12 x13 x14 x15 x16 x17 x18 i = Ideal.logistic (val_main_v15 (F := Ideal) x0 x1 x3 x4 x5 x6 x7 x8 x9 x10 x11 x12 x13 x14 x15 x16 x17 x18 i) := by
  rw [val_main_v24_apply, val_main_v23_apply, val_main_v22_apply, val_main_v21_apply]
  show Ideal.div (Ideal.ofBits .f32 0x3F800000#32) (Ideal.ofBits .f32 0x3F800000#32 + Ideal.exp (-(val_main_v15 (F := Ideal) x0 x1 x3 x4 x5 x6 x7 x8 x9 x10 x11 x12 x13 x14 x15 x16 x17 x18 i))) = _
  rw [Ideal.ofBits_one_f32]
  rfl
/-- One over one plus the exponential of the negated band: the sigmoid of the band. -/
theorem sigmoid_v30 (i : S131072x128.Idx) :
    val_main_v30 (F := Ideal) x0 x1 x3 x4 x5 x6 x7 x8 x9 x10 x11 x12 x13 x14 x15 x16 x17 x18 i = Ideal.logistic (val_main_v16 (F := Ideal) x0 x1 x3 x4 x5 x6 x7 x8 x9 x10 x11 x12 x13 x14 x15 x16 x17 x18 i) := by
  rw [val_main_v30_apply, val_main_v29_apply, val_main_v28_apply, val_main_v27_apply]
  show Ideal.div (Ideal.ofBits .f32 0x3F800000#32) (Ideal.ofBits .f32 0x3F800000#32 + Ideal.exp (-(val_main_v16 (F := Ideal) x0 x1 x3 x4 x5 x6 x7 x8 x9 x10 x11 x12 x13 x14 x15 x16 x17 x18 i))) = _
  rw [Ideal.ofBits_one_f32]
  rfl
/-- One over one plus the exponential of the negated band: the sigmoid of the band. -/
theorem sigmoid_v37 (i : S131072x128.Idx) :
    val_main_v37 (F := Ideal) x0 x1 x3 x4 x5 x6 x7 x8 x9 x10 x11 x12 x13 x14 x15 x16 x17 x18 i = Ideal.logistic (val_main_v18 (F := Ideal) x0 x1 x3 x4 x5 x6 x7 x8 x9 x10 x11 x12 x13 x14 x15 x16 x17 x18 i) := by
  rw [val_main_v37_apply, val_main_v36_apply, val_main_v35_apply, val_main_v34_apply]
  show Ideal.div (Ideal.ofBits .f32 0x3F800000#32) (Ideal.ofBits .f32 0x3F800000#32 + Ideal.exp (-(val_main_v18 (F := Ideal) x0 x1 x3 x4 x5 x6 x7 x8 x9 x10 x11 x12 x13 x14 x15 x16 x17 x18 i))) = _
  rw [Ideal.ofBits_one_f32]
  rfl

/-! ## The two results -/

/-- The reference's new cell state at row r and column j. -/
theorem cell_at (r : Fin 131072) (j : Fin 128) :
    val_main_v40 (F := Ideal) x0 x1 x2 x3 x4 x5 x6 x7 x8 x9 x10 x11 x12 x13 x14 x15 x16 x17 x18 (ix2 r j) = cellRow (fun k => x0 (ix2 r k)) (fun k => x1 (ix2 r k)) (x2 (ix2 r j)) (val_main_v4 (F := Ideal) x3 x7 x11 x15) (val_main_v6 (F := Ideal) x5 x9 x13 x17) (fun q => val_main_v2 (F := Ideal) x4 x8 x12 x16 (ix1 q) + val_main_v3 (F := Ideal) x6 x10 x14 x18 (ix1 q)) j := by
  rw [val_main_v40_apply, val_main_v38_apply, val_main_v39_apply, sigmoid_v24, sigmoid_v30, val_main_v31_apply,
    band_v15, band_v16, band_v17, gates_at, gates_at, gates_at]
  rfl

/-- The reference's new hidden state at row r and column j. -/
theorem hidden_at (r : Fin 131072) (j : Fin 128) :
    val_main_v42 (F := Ideal) x0 x1 x2 x3 x4 x5 x6 x7 x8 x9 x10 x11 x12 x13 x14 x15 x16 x17 x18 (ix2 r j) = hiddenRow (fun k => x0 (ix2 r k)) (fun k => x1 (ix2 r k)) (x2 (ix2 r j)) (val_main_v4 (F := Ideal) x3 x7 x11 x15) (val_main_v6 (F := Ideal) x5 x9 x13 x17) (fun q => val_main_v2 (F := Ideal) x4 x8 x12 x16 (ix1 q) + val_main_v3 (F := Ideal) x6 x10 x14 x18 (ix1 q)) j := by
  rw [val_main_v42_apply, val_main_v41_apply, sigmoid_v37, band_v18, gates_at, cell_at]
  rfl

/-- The reference's new cell state, the whole array. -/
theorem cell_eq : val_main_v40 (F := Ideal) x0 x1 x2 x3 x4 x5 x6 x7 x8 x9 x10 x11 x12 x13 x14 x15 x16 x17 x18 = cellNext x0 x1 x2 (val_main_v4 (F := Ideal) x3 x7 x11 x15) (val_main_v6 (F := Ideal) x5 x9 x13 x17) (fun q => val_main_v2 (F := Ideal) x4 x8 x12 x16 (ix1 q) + val_main_v3 (F := Ideal) x6 x10 x14 x18 (ix1 q)) := by
  funext i
  obtain ⟨r, j, rfl⟩ : ∃ (r : Fin 131072) (j : Fin 128), i = ix2 r j := ⟨i 0, i 1, eq_ix2 i⟩
  exact cell_at x0 x1 x2 x3 x5 x7 x9 x11 x13 x15 x17 x4 x6 x8 x10 x12 x14 x16 x18 r j

/-- The reference's new hidden state, the whole array. -/
theorem hidden_eq : val_main_v42 (F := Ideal) x0 x1 x2 x3 x4 x5 x6 x7 x8 x9 x10 x11 x12 x13 x14 x15 x16 x17 x18 = hiddenNext x0 x1 x2 (val_main_v4 (F := Ideal) x3 x7 x11 x15) (val_main_v6 (F := Ideal) x5 x9 x13 x17) (fun q => val_main_v2 (F := Ideal) x4 x8 x12 x16 (ix1 q) + val_main_v3 (F := Ideal) x6 x10 x14 x18 (ix1 q)) := by
  funext i
  obtain ⟨r, j, rfl⟩ : ∃ (r : Fin 131072) (j : Fin 128), i = ix2 r j := ⟨i 0, i 1, eq_ix2 i⟩
  exact hidden_at x0 x1 x2 x3 x5 x7 x9 x11 x13 x15 x17 x4 x6 x8 x10 x12 x14 x16 x18 r j

/-! ## The fused weights of the reference -/

/-- The reference's fused input weights: the four weights stacked, the stack transposed. -/
theorem fused_input_weights : val_main_v4 (F := Ideal) x3 x7 x11 x15 = fusedT x3 x7 x11 x15 := by
  unfold val_main_v4 val_main_v0
  exact stacked_then_transposed _ _ _ _ _ _

/-- The reference's fused hidden weights. -/
theorem fused_hidden_weights : val_main_v6 (F := Ideal) x5 x9 x13 x17 = fusedT x5 x9 x13 x17 := by
  unfold val_main_v6 val_main_v1
  exact stacked_then_transposed _ _ _ _ _ _

/-- The reference's two results over the fused weights read entry by entry. -/
theorem hidden_result : val_main_v42 (F := Ideal) x0 x1 x2 x3 x4 x5 x6 x7 x8 x9 x10 x11 x12 x13 x14 x15 x16 x17 x18
    = hiddenNext x0 x1 x2 (fusedT x3 x7 x11 x15) (fusedT x5 x9 x13 x17) (fun q => val_main_v2 (F := Ideal) x4 x8 x12 x16 (ix1 q) + val_main_v3 (F := Ideal) x6 x10 x14 x18 (ix1 q)) := by
  rw [hidden_eq, fused_input_weights, fused_hidden_weights]
theorem cell_result : val_main_v40 (F := Ideal) x0 x1 x2 x3 x4 x5 x6 x7 x8 x9 x10 x11 x12 x13 x14 x15 x16 x17 x18
    = cellNext x0 x1 x2 (fusedT x3 x7 x11 x15) (fusedT x5 x9 x13 x17) (fun q => val_main_v2 (F := Ideal) x4 x8 x12 x16 (ix1 q) + val_main_v3 (F := Ideal) x6 x10 x14 x18 (ix1 q)) := by
  rw [cell_eq, fused_input_weights, fused_hidden_weights]

end Cert.ReferenceIdeal.CellValue

end
-- ==== Proof.lean ====
/-
  An LSTM cell, fused: the kernel against its reference, over the extended reals.

  Both programs compute, for a batch of 131072 rows and four gates (forget, input, candidate, output) of width 128,

      gates = x Wx^T + h Wh^T + bx + bh            (131072 x 512, the four gates side by side)
      c'    = sigmoid (gates_f) * c + sigmoid (gates_i) * tanh (gates_c)
      h'    = sigmoid (gates_o) * tanh (c')

  and return (h', c').  The kernel's program transposes each gate's weight and concatenates the transposes along the
  columns, adds the two concatenated bias vectors on the host, and runs one pipelined kernel over 128 blocks of 1024
  rows that does the two products, adds the bias row, and applies the gates with its one-operation sigmoid.  The
  reference concatenates the weights along the rows and transposes the stack, adds the two bias vectors one after the
  other, and spells the sigmoid as 1 / (1 + exp (-z)).  On the extended reals a change of float format is the
  identity, a matrix product is the plain sum over the contracted index on either side, the two ways of fusing the
  weights give the same matrix entry by entry, the one-operation sigmoid is by definition 1 / (1 + exp (-z)), and
  adding two biases in turn is adding their sum (associativity); no other law is used, so the precondition is not.

  The frames of the two kernel programs are CellFrame and CellFrameIdeal; the reference's frame is its run with the
  results dropped; the idealization rewrote nothing, so there is nothing to preserve.
-/
import proofs.«145877_j11398843204098_1_alg».proof.Defs
import proofs.«145877_j11398843204098_1_alg».proof.Proof.Gen.Kernel
import proofs.«145877_j11398843204098_1_alg».proof.Proof.Gen.KernelIdeal
import proofs.«145877_j11398843204098_1_alg».proof.Proof.Gen.ReferenceIdeal
import proofs.«145877_j11398843204098_1_alg».proof.Proof.Gen.Pre_finite_inputs
import proofs.«145877_j11398843204098_1_alg».proof.Proof.Gen.ReferenceIdeal.Run
import proofs.«145877_j11398843204098_1_alg».proof.Proof.Gen.ReferenceIdeal.Read
import proofs.«145877_j11398843204098_1_alg».proof.Proof.CellFrame
import proofs.«145877_j11398843204098_1_alg».proof.Proof.CellFrameIdeal
import proofs.«145877_j11398843204098_1_alg».proof.Proof.CellKernelValue
import proofs.«145877_j11398843204098_1_alg».proof.Proof.CellReference
import Idealize.ShloMosaic.Adequacy
import Idealize.ShloMosaic.Init

noncomputable section

namespace Cert.Proof

open Idealize.ShloMosaic Idealize.ShloMosaic.TcCoe Idealize.SL.Sem Cert.LstmCell

theorem frame_kernel : Cert.frame_Kernel := fun m ρ _ => Cert.Kernel.Cell.frame m ρ

theorem frame_kernelIdeal : Cert.frame_KernelIdeal := fun m ρ _ => Cert.KernelIdeal.Cell.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the nineteen arguments both programs end with the new hidden state and the new cell
    state of those arguments: the kernel's by its run read block by block, the reference's by its run read operation by
    operation; the two bias vectors the reference concatenates are the ones the kernel's host operations concatenate. -/
theorem algebraic : Cert.algebraic_KernelIdeal_ReferenceIdeal := by
  intro m ρ m' ρ' _ hagree
  refine ⟨fun c => hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.CellValue.wxOf m c) (Cert.KernelIdeal.CellValue.whOf m c) (Cert.KernelIdeal.CellValue.biasOf m c),
    fun c => cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.CellValue.wxOf m c) (Cert.KernelIdeal.CellValue.whOf m c) (Cert.KernelIdeal.CellValue.biasOf m c),
    Cert.KernelIdeal.CellValue.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18⟩ := hagree c
  refine ⟨(h c).1.trans ?_, (h c).2.1.trans ?_, (h c).2.2⟩
  · rw [Cert.ReferenceIdeal.Read.val_main_v42_eq, Cert.ReferenceIdeal.CellValue.hidden_result,
      e0, e1, e2, e3, e4, e5, e6, e7, e8, e9, e10, e11, e12, e13, e14, e15, e16, e17, e18]
    rfl
  · rw [Cert.ReferenceIdeal.Read.val_main_v40_eq, Cert.ReferenceIdeal.CellValue.cell_result,
      e0, e1, e2, e3, e4, e5, e6, e7, e8, e9, e10, e11, e12, e13, e14, e15, e16, e17, e18]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
